-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x256x3 : Shape := ⟨3, ![256, 256, 3]⟩
abbrev S1024x2 : Shape := ⟨2, ![1024, 2]⟩
abbrev S1024 : Shape := ⟨1, ![1024]⟩
abbrev S1024x1 : Shape := ⟨2, ![1024, 1]⟩
abbrev S256x1x1024 : Shape := ⟨3, ![256, 1, 1024]⟩
abbrev S_ : Shape := ⟨0, ![]⟩

class Facts : Prop where
  bcast_S_S256x256x3 : S_.BroadcastsInDim S256x256x3 (![] : Fin 0 → Fin S256x256x3.rank)
  reducesTo_S256x256x3_S_d0_1_2 : S256x256x3.ReducesTo [0, 1, 2] S_
  h_S_ : 0 < S_.numel
  bcast_S_S1024x2 : S_.BroadcastsInDim S1024x2 (![] : Fin 0 → Fin S1024x2.rank)
  reducesTo_S1024x2_S_d0_1 : S1024x2.ReducesTo [0, 1] S_
  bcast_S_S1024 : S_.BroadcastsInDim S1024 (![] : Fin 0 → Fin S1024.rank)
  reducesTo_S1024_S_d0 : S1024.ReducesTo [0] S_
  bcast_S_S1024x1 : S_.BroadcastsInDim S1024x1 (![] : Fin 0 → Fin S1024x1.rank)
  reducesTo_S1024x1_S_d0_1 : S1024x1.ReducesTo [0, 1] S_
  bcast_S_S256x1x1024 : S_.BroadcastsInDim S256x1x1024 (![] : Fin 0 → Fin S256x1x1024.rank)
  reducesTo_S256x1x1024_S_d0_1_2 : S256x1x1024.ReducesTo [0, 1, 2] S_

variable [Facts]

def fn_part1 {F : FTy → Type} [FloatOps F] (main_arg4 : FVec F S1024 .f32) (main_arg5 : FVec F S256x1x1024 .f32) (main_v13 : IVec S_ 1) (main_v16 : IVec S1024x1 1) : IVec S_ 1 :=
  let main_c_5 : IVec S_ 1 := constantI S_ 1 1#1
  let main_v17 : IVec S_ 1 := (fun x v => Host.reduce IntOp.andi x v reducesTo_S1024x1_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S256x1x1024 .f32 := Host.absf main_arg5
  let main_cst_8 : FVec F S_ .f32 := constant S_ .f32 0x7F800000#32
  let main_v25 : FVec F S256x1x1024 .f32 := broadcastInDim S256x1x1024 ![] bcast_S_S256x1x1024 main_cst_8
  let main_v26 : IVec S256x1x1024 1 := cmpf .olt main_v24 main_v25
  let main_c_9 : IVec S_ 1 := constantI S_ 1 1#1
  let main_v27 : IVec S_ 1 := (fun x v => Host.reduce IntOp.andi x v reducesTo_S256x1x1024_S_d0_1_2 h_S_) main_v26 main_c_9
  let main_v28 : IVec S_ 1 := andi main_v23 main_v27
  main_v28

def fn {F : FTy → Type} [FloatOps F] (main_arg0 : FVec F S256x256x3 .f32) (main_arg1 : FVec F S1024x2 .f32) (main_arg2 : FVec F S1024 .f32) (main_arg3 : FVec F S1024x1 .f32) (main_arg4 : FVec F S1024 .f32) (main_arg5 : FVec F S256x1x1024 .f32) : IVec S_ 1 :=
  let main_v0 : FVec F S256x256x3 .f32 := Host.absf main_arg0
  let main_cst : FVec F S_ .f32 := constant S_ .f32 0x7F800000#32
  let main_v1 : FVec F S256x256x3 .f32 := broadcastInDim S256x256x3 ![] bcast_S_S256x256x3 main_cst
  let main_v2 : IVec S256x256x3 1 := cmpf .olt main_v0 main_v1
  let main_c : IVec S_ 1 := constantI S_ 1 1#1
  let main_v3 : IVec S_ 1 := (fun x v => Host.reduce IntOp.andi x v reducesTo_S256x256x3_S_d0_1_2 h_S_) main_v2 main_c
  let main_v4 : FVec F S1024x2 .f32 := Host.absf main_arg1
  let main_cst_0 : FVec F S_ .f32 := constant S_ .f32 0x7F800000#32
  let main_v5 : FVec F S1024x2 .f32 := broadcastInDim S1024x2 ![] bcast_S_S1024x2 main_cst_0
  let main_v6 : IVec S1024x2 1 := cmpf .olt main_v4 main_v5
  let main_c_1 : IVec S_ 1 := constantI S_ 1 1#1
  let main_v7 : IVec S_ 1 := (fun x v => Host.reduce IntOp.andi x v reducesTo_S1024x2_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1 .f32 := Host.absf main_arg3
  let main_cst_4 : FVec F S_ .f32 := constant S_ .f32 0x7F800000#32
  let main_v15 : FVec F S1024x1 .f32 := broadcastInDim S1024x1 ![] bcast_S_S1024x1 main_cst_4
  let main_v16 : IVec S1024x1 1 := cmpf .olt main_v14 main_v15
  fn_part1 (F := F) main_arg4 main_arg5 main_v13 main_v16
-- ==== Kernel.lean ====
abbrev S256x256x3 : Shape := ⟨3, ![256, 256, 3]⟩
abbrev S1024x2 : Shape := ⟨2, ![1024, 2]⟩
abbrev S1024 : Shape := ⟨1, ![1024]⟩
abbrev S1024x1 : Shape := ⟨2, ![1024, 1]⟩
abbrev S256x1x1024 : Shape := ⟨3, ![256, 1, 1024]⟩
abbrev S2x1024 : Shape := ⟨2, ![2, 1024]⟩
abbrev S1x1024 : Shape := ⟨2, ![1, 1024]⟩
abbrev S256x256x1024 : Shape := ⟨3, ![256, 256, 1024]⟩
abbrev S64x16x3 : Shape := ⟨3, ![64, 16, 3]⟩
abbrev S64x1x1024 : Shape := ⟨3, ![64, 1, 1024]⟩
abbrev S64x16x1024 : Shape := ⟨3, ![64, 16, 1024]⟩
abbrev S64x16x1 : Shape := ⟨3, ![64, 16, 1]⟩
abbrev S1x1x1024 : Shape := ⟨3, ![1, 1, 1024]⟩

abbrev nBuf : Space → Nat
  | .hbm => 11
  | .vmem => 10
  | .smem => 0
  | _ => 0

abbrev bufTy : (tb : Table) → Fin (tcTables nBuf tb) → BufTy
  | .hbm, ⟨0, _⟩ => ⟨S256x256x3, .f32⟩
  | .hbm, ⟨1, _⟩ => ⟨S1024x2, .f32⟩
  | .hbm, ⟨2, _⟩ => ⟨S1024, .f32⟩
  | .hbm, ⟨3, _⟩ => ⟨S1024x1, .f32⟩
  | .hbm, ⟨4, _⟩ => ⟨S1024, .f32⟩
  | .hbm, ⟨5, _⟩ => ⟨S256x1x1024, .f32⟩
  | .hbm, ⟨6, _⟩ => ⟨S2x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S256x256x1024, .f32⟩
  | .local _ .vmem, ⟨0, _⟩ => ⟨S64x16x3, .f32⟩
  | .local _ .vmem, ⟨1, _⟩ => ⟨S64x16x3, .f32⟩
  | .local _ .vmem, ⟨2, _⟩ => ⟨S2x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S64x1x1024, .f32⟩
  | .local _ .vmem, ⟨7, _⟩ => ⟨S64x1x1024, .f32⟩
  | .local _ .vmem, ⟨8, _⟩ => ⟨S64x16x1024, .f32⟩
  | .local _ .vmem, ⟨9, _⟩ => ⟨S64x16x1024, .f32⟩
  | _, _ => ⟨S256x256x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S64x16x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S64x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S64x16x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  transposes_S1024x2_S2x1024_1_0 : S1024x2.Transposes [1, 0] S2x1024
  shapeCasts_S1024_S1x1024 : S1024.ShapeCasts S1x1024
  transposes_S1024x1_S1x1024_1_0 : S1024x1.Transposes [1, 0] S1x1024
  inb_S64x16x3_S64x16x3_0_0_0 : ∀ a, (![0, 0, 0] : Fin 3 → Nat) a + S64x16x3.size a ≤ S64x16x3.size a
  h_S64x16x3 : 0 < S64x16x3.numel
  slices_S64x16x3_o0_0_0_S64x16x1 : S64x16x3.Slices ![0, 0, 0] S64x16x1
  slices_S64x16x3_o0_0_1_S64x16x1 : S64x16x3.Slices ![0, 0, 1] S64x16x1
  slices_S64x16x3_o0_0_2_S64x16x1 : S64x16x3.Slices ![0, 0, 2] S64x16x1
  inb_S2x1024_S1x1024_0_0 : ∀ a, (![0, 0] : Fin 2 → Nat) a + S1x1024.size a ≤ S2x1024.size a
  h_S1x1024 : 0 < S1x1024.numel
  shapeCasts_S1x1024_S1x1024 : S1x1024.ShapeCasts S1x1024
  shapeCasts_S1x1024_S1x1x1024 : S1x1024.ShapeCasts S1x1x1024
  inb_S2x1024_S1x1024_1_0 : ∀ a, (![1, 0] : Fin 2 → Nat) a + S1x1024.size a ≤ S2x1024.size a
  inb_S1x1024_S1x1024_0_0 : ∀ a, (![0, 0] : Fin 2 → Nat) a + S1x1024.size a ≤ S1x1024.size a
  inb_S64x1x1024_S64x1x1024_0_0_0 : ∀ a, (![0, 0, 0] : Fin 3 → Nat) a + S64x1x1024.size a ≤ S64x1x1024.size a
  h_S64x1x1024 : 0 < S64x1x1024.numel
  broadcasts_S64x16x1_S64x16x1024 : S64x16x1.Broadcasts S64x16x1024
  broadcasts_S1x1x1024_S64x16x1024 : S1x1x1024.Broadcasts S64x16x1024
  broadcasts_S64x1x1024_S64x16x1024 : S64x1x1024.Broadcasts S64x16x1024
  inb_S64x16x1024_S64x16x1024_0_0_0 : ∀ a, (![0, 0, 0] : Fin 3 → Nat) a + S64x16x1024.size a ≤ S64x16x1024.size a
  h_S64x16x1024 : 0 < S64x16x1024.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x16x3.size a ≤ S256x256x3.size a
  hwx0_0 : ∀ i : grid0.Coords, EltTy.bits .f32 = 32 ∨ (Rect.block (s := S256x256x3) S64x16x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x1024.size a ≤ S2x1024.size a
  hwx0_1 : ∀ i : grid0.Coords, EltTy.bits .f32 = 32 ∨ (Rect.block (s := S2x1024) S2x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x1x1024.size a ≤ S256x1x1024.size a
  hwx0_5 : ∀ i : grid0.Coords, EltTy.bits .f32 = 32 ∨ (Rect.block (s := S256x1x1024) S64x1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S64x16x1024.size a ≤ S256x256x1024.size a
  hwx0_6 : ∀ i : grid0.Coords, EltTy.bits .f32 = 32 ∨ (Rect.block (s := S256x256x1024) S64x16x1024.size (cc0_transform_6 i) (hinb0_6 i)).WholeWords (EltTy.packing .f32)

variable [Facts₀]

abbrev win0_0 : Pipeline.Window sig grid0 :=
  Pipeline.Window.ofSpec (Memref.whole main_arg0) S64x16x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4) S64x16x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S256x256x3 : Shape := ⟨3, ![256, 256, 3]⟩
abbrev S1024x2 : Shape := ⟨2, ![1024, 2]⟩
abbrev S1024 : Shape := ⟨1, ![1024]⟩
abbrev S1024x1 : Shape := ⟨2, ![1024, 1]⟩
abbrev S256x1x1024 : Shape := ⟨3, ![256, 1, 1024]⟩
abbrev S256x256x2 : Shape := ⟨3, ![256, 256, 2]⟩
abbrev S256x256x1024 : Shape := ⟨3, ![256, 256, 1024]⟩
abbrev S1x1x1024 : Shape := ⟨3, ![1, 1, 1024]⟩
abbrev S256x256x1 : Shape := ⟨3, ![256, 256, 1]⟩

abbrev nBuf : Space → Nat
  | .hbm => 23
  | .vmem => 0
  | .smem => 0
  | _ => 0

abbrev bufTy : (tb : Table) → Fin (tcTables nBuf tb) → BufTy
  | .hbm, ⟨0, _⟩ => ⟨S256x256x3, .f32⟩
  | .hbm, ⟨1, _⟩ => ⟨S1024x2, .f32⟩
  | .hbm, ⟨2, _⟩ => ⟨S1024, .f32⟩
  | .hbm, ⟨3, _⟩ => ⟨S1024x1, .f32⟩
  | .hbm, ⟨4, _⟩ => ⟨S1024, .f32⟩
  | .hbm, ⟨5, _⟩ => ⟨S256x1x1024, .f32⟩
  | .hbm, ⟨6, _⟩ => ⟨S256x256x2, .f32⟩
  | .hbm, ⟨7, _⟩ => ⟨S256x256x1024, .f32⟩
  | .hbm, ⟨8, _⟩ => ⟨S1x1x1024, .f32⟩
  | .hbm, ⟨9, _⟩ => ⟨S256x256x1024, .f32⟩
  | .hbm, ⟨10, _⟩ => ⟨S256x256x1024, .f32⟩
  | .hbm, ⟨11, _⟩ => ⟨S256x256x1, .f32⟩
  | .hbm, ⟨12, _⟩ => ⟨S1024, .f32⟩
  | .hbm, ⟨13, _⟩ => ⟨S1x1x1024, .f32⟩
  | .hbm, ⟨14, _⟩ => ⟨S256x256x1024, .f32⟩
  | .hbm, ⟨15, _⟩ => ⟨S256x256x1024, .f32⟩
  | .hbm, ⟨16, _⟩ => ⟨S256x256x1024, .f32⟩
  | .hbm, ⟨17, _⟩ => ⟨S1x1x1024, .f32⟩
  | .hbm, ⟨18, _⟩ => ⟨S256x256x1024, .f32⟩
  | .hbm, ⟨19, _⟩ => ⟨S256x256x1024, .f32⟩
  | .hbm, ⟨20, _⟩ => ⟨S256x256x1024, .f32⟩
  | .hbm, ⟨21, _⟩ => ⟨S256x256x1024, .f32⟩
  | .hbm, ⟨22, _⟩ => ⟨S256x256x1024, .f32⟩
  | _, _ => ⟨S256x256x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  slices_S256x256x3_S256x256x2_0_0_0 : S256x256x3.Slices ![0, 0, 0] S256x256x2
  bcast_S1024_S1x1x1024_2 : S1024.BroadcastsInDim S1x1x1024 (![2] : Fin 1 → Fin S1x1x1024.rank)
  bcast_S1x1x1024_S256x256x1024_0_1_2 : S1x1x1024.BroadcastsInDim S256x256x1024 (![0, 1, 2] : Fin 3 → Fin S256x256x1024.rank)
  slices_S256x256x3_S256x256x1_0_0_2 : S256x256x3.Slices ![0, 0, 2] S256x256x1
  shapeCasts_S1024x1_S1024 : S1024x1.ShapeCasts S1024
  bcast_S256x256x1_S256x256x1024_0_1_2 : S256x256x1.BroadcastsInDim S256x256x1024 (![0, 1, 2] : Fin 3 → Fin S256x256x1024.rank)
  bcast_S256x1x1024_S256x256x1024_0_1_2 : S256x1x1024.BroadcastsInDim S256x256x1024 (![0, 1, 2] : Fin 3 → Fin S256x256x1024.rank)
  dot_S256x256x2_S1024x2_S256x256x1024_2_1_01_0_n_n_wf : DotDims.WF S256x256x2 S1024x2 S256x256x1024 [2] [1] [0, 1] [0] [] []

variable [Facts₀]

def dot_S256x256x2_S1024x2_S256x256x1024_2_1_01_0_n_n : DotDims S256x256x2 S1024x2 S256x256x1024 where
  lhsContracting := [2]
  rhsContracting := [1]
  lhsNonContracting := [0, 1]
  rhsNonContracting := [0]
  lhsBatch := []
  rhsBatch := []
  wf := dot_S256x256x2_S1024x2_S256x256x1024_2_1_01_0_n_n_wf

class Facts : Prop extends Facts₀ where

variable [Facts]
-- ==== Proof.Spec.lean ====
/-
  What the layer computes, as ONE function of its six argument arrays, entry by entry.  For a sequence position
  `s`, a batch entry `b` and a model coordinate `d`:

    out[s, b, d] = (x[s,b,0] · Wxy[d,0] + x[s,b,1] · Wxy[d,1] + bxy[d])      -- the planar projection, contraction length 2
                 + (x[s,b,2] · Wseg[d,0] + bseg[d])                         -- the segment projection, contraction length 1
                 + pe[s,0,d]                                                -- the positional table, constant along the batch

  over the extended reals.  The two programs group the three summands differently: one adds the segment term before
  the positional one, the other after it.  Addition of extended reals is commutative and associative (with the
  convention `⊥ + ⊤ = ⊥`), so the two groupings agree on every input, finite or not: `regroup`.  The planar
  projection is a sum over a two-element index set, which is its two terms in order: `sum_two`.
-/
import Idealize.ShloMosaic.PureOps.Ideal
import Idealize.ShloMosaic.Lib.ValueIdx

noncomputable section

namespace Cert.PosEnc

open Idealize.ShloMosaic Idealize.ShloMosaic.ValueIdx

/-- The six argument shapes and the result's, as literals. -/
abbrev SX : Shape := ⟨3, ![256, 256, 3]⟩
abbrev SWxy : Shape := ⟨2, ![1024, 2]⟩
abbrev SVec : Shape := ⟨1, ![1024]⟩
abbrev SWseg : Shape := ⟨2, ![1024, 1]⟩
abbrev SPe : Shape := ⟨3, ![256, 1, 1024]⟩
abbrev SOut : Shape := ⟨3, ![256, 256, 1024]⟩

/-- The layer's result at sequence position `s`, batch entry `b`, model coordinate `d`. -/
def entry (x : SX.Idx → EReal) (wxy : SWxy.Idx → EReal) (bxy : SVec.Idx → EReal) (wseg : SWseg.Idx → EReal)
    (bseg : SVec.Idx → EReal) (pe : SPe.Idx → EReal) (s b : Fin 256) (d : Fin 1024) : EReal :=
  (x (ix3 s b (0 : Fin 3)) * wxy (ix2 d (0 : Fin 2)) + x (ix3 s b (1 : Fin 3)) * wxy (ix2 d (1 : Fin 2)) + bxy (ix1 d))
    + (x (ix3 s b (2 : Fin 3)) * wseg (ix2 d (0 : Fin 1)) + bseg (ix1 d))
    + pe (ix3 s (0 : Fin 1) d)

/-- The whole result array: `entry` at the index's three coordinates. -/
def layer (x : SX.Idx → EReal) (wxy : SWxy.Idx → EReal) (bxy : SVec.Idx → EReal) (wseg : SWseg.Idx → EReal)
    (bseg : SVec.Idx → EReal) (pe : SPe.Idx → EReal) : SOut.Idx → EReal :=
  fun i => entry x wxy bxy wseg bseg pe (i 0) (i 1) (i 2)

/-- Adding the positional term before the segment term or after it is the same extended real. -/
theorem regroup (p q r : EReal) : p + r + q = p + q + r := add_right_comm p r q

/-- A sum over the two contraction indices is its two terms, in order. -/
theorem sum_two (f : Fin 2 → EReal) : ∑ k : Fin 2, f k = f 0 + f 1 := Fin.sum_univ_two f

end Cert.PosEnc

end
-- ==== Proof.RefSide.lean ====
/-
  The reference program's result, read entry by entry, is the layer's function of the six arguments.

  The reference computes the planar projection as a contraction over the two planar coordinates, adds the planar
  bias, then the positional table broadcast along the batch, then the segment term.  At an index `i = (s, b, d)`
  every broadcast, slice and reshape reads one entry of an argument; the contraction is a sum over two indices.
  Written out, the reference's entry is `((t₀ + t₁ + bxy) + pe) + seg`, the layer's `((t₀ + t₁ + bxy) + seg) + pe`.
-/
import proofs.«133185_j25288767438916_1_alg».proof.Proof.Gen.ReferenceIdeal.Read
import proofs.«133185_j25288767438916_1_alg».proof.Proof.Spec

noncomputable section

namespace Cert.PosEnc.Reference

open Cert.ReferenceIdeal Cert.ReferenceIdeal.Read Idealize.ShloMosaic Idealize.ShloMosaic.ValueIdx Cert.PosEnc

/-- The last stage of the reference, at the exact instance, is `layer` of the six argument arrays. -/
theorem result_eq_layer (x0 : (⟨S256x256x3, .f32⟩ : BufTy).Contents (Elt Ideal)) (x1 : (⟨S1024x2, .f32⟩ : BufTy).Contents (Elt Ideal))
    (x2 : (⟨S1024, .f32⟩ : BufTy).Contents (Elt Ideal)) (x3 : (⟨S1024x1, .f32⟩ : BufTy).Contents (Elt Ideal))
    (x4 : (⟨S1024, .f32⟩ : BufTy).Contents (Elt Ideal)) (x5 : (⟨S256x1x1024, .f32⟩ : BufTy).Contents (Elt Ideal)) :
    val_main_v16 (F := Ideal) x0 x1 x2 x3 x4 x5 = layer x0 x1 x2 x3 x4 x5 := by
  funext i
  -- the planar coordinates 0 and 1 of `x` at (s, b), against row d of the planar weights
  have ex0 : idx_main_v0 (lidx_main_v1 i 0) = ix3 (i 0) (i 1) (0 : Fin 3) :=
    funext fun a => Fin.ext (by match a with | ⟨0, _⟩ => rfl | ⟨1, _⟩ => rfl | ⟨2, _⟩ => rfl)
  have ex1 : idx_main_v0 (lidx_main_v1 i 1) = ix3 (i 0) (i 1) (1 : Fin 3) :=
    funext fun a => Fin.ext (by match a with | ⟨0, _⟩ => rfl | ⟨1, _⟩ => rfl | ⟨2, _⟩ => rfl)
  have ew0 : ridx_main_v1 i 0 = ix2 (i 2) (0 : Fin 2) :=
    funext fun a => Fin.ext (by match a with | ⟨0, _⟩ => rfl | ⟨1, _⟩ => rfl)
  have ew1 : ridx_main_v1 i 1 = ix2 (i 2) (1 : Fin 2) :=
    funext fun a => Fin.ext (by match a with | ⟨0, _⟩ => rfl | ⟨1, _⟩ => rfl)
  -- the two bias vectors at d
  have eb : idx_main_v2 (idx_main_v3 i) = ix1 (i 2) :=
    funext fun a => Fin.ext (by match a with | ⟨0, _⟩ => rfl)
  have es : idx_main_v11 (idx_main_v12 i) = ix1 (i 2) :=
    funext fun a => Fin.ext (by match a with | ⟨0, _⟩ => rfl)
  -- the segment coordinate of `x` at (s, b), the segment weight's row d, the positional table at (s, 0, d)
  have ex2 : idx_main_v5 (idx_main_v8 i) = ix3 (i 0) (i 1) (2 : Fin 3) :=
    funext fun a => Fin.ext (by match a with | ⟨0, _⟩ => rfl | ⟨1, _⟩ => rfl | ⟨2, _⟩ => rfl)
  have eg : idx_main_v6 (idx_main_v7 (idx_main_v9 i)) = ix2 (i 2) (0 : Fin 1) :=
    funext fun a => Fin.ext (by match a with | ⟨0, _⟩ => exact Nat.div_one _ | ⟨1, _⟩ => rfl)
  have ep : idx_main_v14 i = ix3 (i 0) (0 : Fin 1) (i 2) :=
    funext fun a => Fin.ext (by match a with | ⟨0, _⟩ => rfl | ⟨1, _⟩ => rfl | ⟨2, _⟩ => rfl)
  rw [val_main_v16_apply, val_main_v15_apply, val_main_v4_apply, val_main_v1_apply, val_main_v3_apply, val_main_v2_apply,
    val_main_v14_apply, val_main_v13_apply, val_main_v10_apply, val_main_v8_apply, val_main_v5_apply, val_main_v9_apply,
    val_main_v7_apply, val_main_v6_apply, val_main_v12_apply, val_main_v11_apply, sum_two]
  simp only [val_main_v0_apply]
  rw [ex0, ex1, ew0, ew1, eb, es, ex2, eg, ep]
  exact regroup _ _ _

end Cert.PosEnc.Reference

end
-- ==== Proof.KernelHost.lean ====
/-
  The four small arrays the kernel's program lays out on the host before the grid runs, read entry by entry.

  The planar weights `Wxy : [1024, 2]` and the segment weights `Wseg : [1024, 1]` are transposed, to `[2, 1024]` and
  `[1, 1024]`; the two bias vectors `bxy, bseg : [1024]` are reshaped to rows `[1, 1024]`.  So entry `(k, d)` of the
  transposed planar weights is `Wxy[d, k]`, entry `(0, d)` of the transposed segment weights is `Wseg[d, 0]`, and
  entry `(0, d)` of a bias row is the bias at `d`.  None of this touches a float: it holds at every instance.
-/
import proofs.«133185_j25288767438916_1_alg».proof.Proof.Gen.KernelIdeal.Frame
import Idealize.ShloMosaic.Lib.Pipeline.Value
import Idealize.ShloMosaic.Lib.StableHlo.Run
import Idealize.ShloMosaic.Lib.ValueIdx

noncomputable section

namespace Cert.PosEnc.Kernel

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-! ## Each laid-out array as one operation of an argument -/

theorem planarWeightsT_eq (c : Dev nD) : (V m c main_v0 : S2x1024.Idx → Elt F .f32)
    = transpose S2x1024 [1, 0] (m ((c : Thread nD τ).loc main_arg1)) transposes_S1024x2_S2x1024_1_0 := by
  dsimp only [Gen.V, Gen.hostOps0]; after_results <;> rfl

theorem planarBiasRow_eq (c : Dev nD) : (V m c main_v1 : S1x1024.Idx → Elt F .f32)
    = shapeCast S1x1024 (m ((c : Thread nD τ).loc main_arg2)) shapeCasts_S1024_S1x1024 := by
  dsimp only [Gen.V, Gen.hostOps0]; after_results <;> rfl

theorem segmentWeightsT_eq (c : Dev nD) : (V m c main_v2 : S1x1024.Idx → Elt F .f32)
    = transpose S1x1024 [1, 0] (m ((c : Thread nD τ).loc main_arg3)) transposes_S1024x1_S1x1024_1_0 := by
  dsimp only [Gen.V, Gen.hostOps0]; after_results <;> rfl

theorem segmentBiasRow_eq (c : Dev nD) : (V m c main_v3 : S1x1024.Idx → Elt F .f32)
    = shapeCast S1x1024 (m ((c : Thread nD τ).loc main_arg4)) shapeCasts_S1024_S1x1024 := by
  dsimp only [Gen.V, Gen.hostOps0]; after_results <;> rfl

/-! ## Read at an entry -/

/-- Entry `(k, d)` of the transposed planar weights is `Wxy[d, k]`. -/
theorem planarWeightsT_apply (c : Dev nD) (k : Fin 2) (d : Fin 1024) :
    V m c main_v0 (ix2 k d) = m ((c : Thread nD τ).loc main_arg1) (ix2 d k) := by
  rw [planarWeightsT_eq]
  exact transpose_apply [1, 0] _ transposes_S1024x2_S2x1024_1_0 (ix2 k d) (ix2 d k)
    (fun b => match b with | ⟨0, _⟩ => rfl | ⟨1, _⟩ => rfl)

/-- Entry `(0, d)` of the planar bias row is `bxy[d]`. -/
theorem planarBiasRow_apply (c : Dev nD) (d : Fin 1024) :
    V m c main_v1 (ix2 (0 : Fin 1) d) = m ((c : Thread nD τ).loc main_arg2) (ix1 d) := by
  rw [planarBiasRow_eq]
  exact shapeCast_apply _ shapeCasts_S1024_S1x1024 (ix2 (0 : Fin 1) d) (ix1 d)
    (by rw [Shape.rowMajor_val_one, Shape.rowMajor_val_two]; show d.val = 0 * 1024 + d.val; omega)

/-- Entry `(0, d)` of the transposed segment weights is `Wseg[d, 0]`. -/
theorem segmentWeightsT_apply (c : Dev nD) (d : Fin 1024) :
    V m c main_v2 (ix2 (0 : Fin 1) d) = m ((c : Thread nD τ).loc main_arg3) (ix2 d (0 : Fin 1)) := by
  rw [segmentWeightsT_eq]
  exact transpose_apply [1, 0] _ transposes_S1024x1_S1x1024_1_0 (ix2 (0 : Fin 1) d) (ix2 d (0 : Fin 1))
    (fun b => match b with | ⟨0, _⟩ => rfl | ⟨1, _⟩ => rfl)

/-- Entry `(0, d)` of the segment bias row is `bseg[d]`. -/
theorem segmentBiasRow_apply (c : Dev nD) (d : Fin 1024) :
    V m c main_v3 (ix2 (0 : Fin 1) d) = m ((c : Thread nD τ).loc main_arg4) (ix1 d) := by
  rw [segmentBiasRow_eq]
  exact shapeCast_apply _ shapeCasts_S1024_S1x1024 (ix2 (0 : Fin 1) d) (ix1 d)
    (by rw [Shape.rowMajor_val_one, Shape.rowMajor_val_two]; show d.val = 0 * 1024 + d.val; omega)

end Cert.PosEnc.Kernel

end
-- ==== Proof.KernelBlock.lean ====
/-
  What one grid point writes back: its block of the layer's result.

  The grid has 4 × 16 points; point `(gi, gj)` works on sequence positions `64·gi … 64·gi + 63` and batch entries
  `16·gj … 16·gj + 15`, all 1024 model coordinates.  It is handed the matching `[64, 16, 3]` block of `x`, the
  `[64, 1, 1024]` block of the positional table for those sequence positions, and the four small laid-out arrays whole.
  At local index `(p, q, r)` the body's result reads `x` at local `(p, q, ·)`, the small arrays at column `r` and the
  positional block at `(p, 0, r)` — so, with `s = 64·gi + p`, `b = 16·gj + q`, `d = r`, it is `entry … s b d`.
-/
import proofs.«133185_j25288767438916_1_alg».proof.Proof.Gen.KernelIdeal.Value
import proofs.«133185_j25288767438916_1_alg».proof.Proof.KernelHost
import proofs.«133185_j25288767438916_1_alg».proof.Proof.Spec

noncomputable section

namespace Cert.PosEnc.Kernel

open Cert.KernelIdeal Cert.KernelIdeal.Gen Idealize.ShloMosaic Idealize.ShloMosaic.TcCoe Idealize.SL.Sem
open Idealize.ShloMosaic.ValueIdx Cert.PosEnc

/-! ## The body's result at a local index, from what its loads hold there -/

/-- If the loaded blocks hold, at the places local index `(p, q, r)` reads, the arguments' entries that
    `entry … s b d` reads, then the body's result at `(p, q, r)` is `entry … s b d`.  Stated over arbitrary blocks. -/
theorem body_at (A0 : SX.Idx → EReal) (A1 : SWxy.Idx → EReal) (A2 : SVec.Idx → EReal) (A3 : SWseg.Idx → EReal)
    (A4 : SVec.Idx → EReal) (A5 : SPe.Idx → EReal)
    (X0 : Vec Ideal S64x16x3 .f32) (X1 : Vec Ideal S2x1024 .f32) (X2 X3 X4 : Vec Ideal S1x1024 .f32)
    (X5 : Vec Ideal S64x1x1024 .f32)
    (p : Fin 64) (q : Fin 16) (r : Fin 1024) (s b : Fin 256) (d : Fin 1024)
    (h0 : ∀ k : Fin 3, X0 (ix3 p q k) = A0 (ix3 s b k))
    (h1 : ∀ k : Fin 2, X1 (ix2 k r) = A1 (ix2 d k))
    (h2 : X2 (ix2 (0 : Fin 1) r) = A2 (ix1 d))
    (h3 : X3 (ix2 (0 : Fin 1) r) = A3 (ix2 d (0 : Fin 1)))
    (h4 : X4 (ix2 (0 : Fin 1) r) = A4 (ix1 d))
    (h5 : X5 (ix3 p (0 : Fin 1) r) = A5 (ix3 s (0 : Fin 1) d)) :
    Value.E6 (View.ld X0 r0_0) (View.ld X1 r0_1) (View.ld X1 r0_2) (View.ld X2 r0_3) (View.ld X3 r0_3) (View.ld X4 r0_3)
        (View.ld X5 r0_4) (ix3 p q r)
      = entry A0 A1 A2 A3 A4 A5 s b d := by
  -- where each read lands in its loaded block (the three reads of the bias rows and the segment weights land at one place)
  have i0 : r0_0.idx (Value.ix6_0 (ix3 p q r)) = ix3 p q (0 : Fin 3) := funext fun a => Fin.ext (by
    match a with
    | ⟨0, _⟩ => show 0 + 1 * p.val = p.val; omega
    | ⟨1, _⟩ => show 0 + 1 * q.val = q.val; omega
    | ⟨2, _⟩ => show 0 + 1 * 0 = 0; omega)
  have i1 : r0_1.idx (Value.ix6_1 (ix3 p q r)) = ix2 (0 : Fin 2) r := funext fun a => Fin.ext (by
    match a with
    | ⟨0, _⟩ => show 0 + 1 * 0 = 0; omega
    | ⟨1, _⟩ => show 0 + 1 * r.val = r.val; omega)
  have i2 : r0_0.idx (Value.ix6_2 (ix3 p q r)) = ix3 p q (1 : Fin 3) := funext fun a => Fin.ext (by
    match a with
    | ⟨0, _⟩ => show 0 + 1 * p.val = p.val; omega
    | ⟨1, _⟩ => show 0 + 1 * q.val = q.val; omega
    | ⟨2, _⟩ => show 0 + 1 * 1 = 1; omega)
  have i3 : r0_2.idx (Value.ix6_3 (ix3 p q r)) = ix2 (1 : Fin 2) r := funext fun a => Fin.ext (by
    match a with
    | ⟨0, _⟩ => show 1 + 1 * 0 = 1; omega
    | ⟨1, _⟩ => show 0 + 1 * r.val = r.val; omega)
  have i4 : r0_3.idx (Value.ix6_4 (ix3 p q r)) = ix2 (0 : Fin 1) r := funext fun a => Fin.ext (by
    match a with
    | ⟨0, _⟩ => show 0 + 1 * 0 = 0; omega
    | ⟨1, _⟩ => show 0 + 1 * r.val = r.val; omega)
  have i5 : r0_0.idx (Value.ix6_5 (ix3 p q r)) = ix3 p q (2 : Fin 3) := funext fun a => Fin.ext (by
    match a with
    | ⟨0, _⟩ => show 0 + 1 * p.val = p.val; omega
    | ⟨1, _⟩ => show 0 + 1 * q.val = q.val; omega
    | ⟨2, _⟩ => show 0 + 1 * 2 = 2; omega)
  have i8 : r0_4.idx (Value.ix6_8 (ix3 p q r)) = ix3 p (0 : Fin 1) r := funext fun a => Fin.ext (by
    match a with
    | ⟨0, _⟩ => show 0 + 1 * p.val = p.val; omega
    | ⟨1, _⟩ => show 0 + 1 * 0 = 0; omega
    | ⟨2, _⟩ => show 0 + 1 * r.val = r.val; omega)
  dsimp only [Value.E6, View.ld]
  rw [i0, i1, i2, i3, i4, i5, i8, h0, h0, h0, h1, h1, h2, h3, h4, h5]
  rfl

end Cert.PosEnc.Kernel

end
-- ==== Proof.KernelRun.lean ====
/-
  The whole result array after the kernel's program has run: the layer's function of the six arguments.

  Every grid point writes back its own `[64, 16, 1024]` block of that function (`flushed_eq`): the block of `x` and
  the block of the positional table it was handed sit at the same sequence offset as its output block, the block of
  `x` also at the same batch offset, and the four small arrays are handed over whole.  The 4 × 16 output blocks tile
  the `[256, 256, 1024]` array — the entry at `(s, b, d)` lies in the block of point `(s / 64, b / 16)` — so the
  array ends holding the function everywhere (`final`), and the program's run can be stated with that array named.
-/
import proofs.«133185_j25288767438916_1_alg».proof.Proof.Gen.KernelIdeal.Value
import proofs.«133185_j25288767438916_1_alg».proof.Proof.KernelBlock

noncomputable section

namespace Cert.PosEnc.Kernel

open Cert.KernelIdeal Cert.KernelIdeal.Gen Idealize.ShloMosaic Idealize.ShloMosaic.TcCoe Idealize.SL.Sem
open Idealize.ShloMosaic.ValueIdx Cert.PosEnc
open Idealize.ShloMosaic.Pipeline (Dat)

variable (m : (ℓ : Loc nD τ sig) → Buf (Elt Ideal) ℓ) (ρ : Dev nD → PrngReg)

/-- The layer's result of the six argument arrays as core `c` is launched with them. -/
abbrev result (c : Dev nD) : SOut.Idx → EReal :=
  layer (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-! ## Where each window's block sits, over the 64 grid points -/

/-- The block of `x` moves with the output block along the sequence and batch axes; the positional block moves with
    it along the sequence axis; every other block index is zero; the output's block indices stay below 4 and 16. -/
theorem index_facts : ∀ t : Fin cfg0.N,
    win0_0.index t (0 : Fin 3) = win0_6.index t (0 : Fin 3)
    ∧ win0_0.index t (1 : Fin 3) = win0_6.index t (1 : Fin 3)
    ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = win0_6.index t (0 : Fin 3)
    ∧ win0_5.index t (1 : Fin 3) = 0 ∧ win0_5.index t (2 : Fin 3) = 0
    ∧ win0_6.index t (0 : Fin 3) ≤ 3 ∧ win0_6.index t (1 : Fin 3) ≤ 15 ∧ win0_6.index t (2 : Fin 3) = 0 :=
  (by decide +kernel : ∀ t : Fin grid0.N, _)

/-- Every pair of a sequence block and a batch block is some grid point's output block. -/
theorem index_onto : ∀ (gi : Fin 4) (gj : Fin 16), ∃ t : Fin cfg0.N, win0_6.index t = ![gi.val, gj.val, 0] :=
  (by decide +kernel : ∀ (gi : Fin 4) (gj : Fin 16), ∃ t : Fin grid0.N, win0_6.index t = ![gi.val, gj.val, 0])

/-! ## What a point writes back -/

/-- The body's one store leaves in the output buffer the index-by-index function `Value.E6` of its loads. -/
theorem stored_eq (P0 : Vec Ideal S64x16x3 .f32) (P1 P2 P3 P4 P5 : Vec Ideal S1x1024 .f32) (P6 : Vec Ideal S64x1x1024 .f32) :
    View.canon [⟨r0_5, k0_pay1 P0 P1 P2 P3 P4 P5 P6⟩] = Value.E6 P0 P1 P2 P3 P4 P5 P6 :=
  funext (Value.canon6_eq P0 P1 P2 P3 P4 P5 P6)

/-- POINT `t` WRITES BACK block `t` of the layer's result. -/
theorem flushed_eq (c : Dev nD) (t : Fin cfg0.N) :
    (dats m 0 c).flushed 6 t = ((cfg0.win 6).blk t).view.read (Elt Ideal) (result m c) := by
  rw [Value.flushed6]
  unfold out0_6
  rw [stored_eq]
  obtain ⟨e00, e01, e02, e10, e11, e20, e21, e30, e31, e40, e41, e50, e51, e52, b0, b1, e62⟩ := index_facts t
  funext y
  obtain ⟨p, q, r, rfl⟩ : ∃ (p : Fin 64) (q : Fin 16) (r : Fin 1024), y = ix3 p q r := ⟨y 0, y 1, y 2, eq_ix3 y⟩
  -- the entry of the whole array under local index (p, q, r) of this point's output block
  have hp : p.val < 64 := p.isLt
  have hq : q.val < 16 := q.isLt
  have hs : win0_6.index t (0 : Fin 3) * 64 + p.val < 256 := by omega
  have hb : win0_6.index t (1 : Fin 3) * 16 + q.val < 256 := by omega
  have hg : ((cfg0.win 6).blk t).view.emb (ix3 p q r)
      = ix3 (⟨win0_6.index t (0 : Fin 3) * 64 + p.val, hs⟩ : Fin 256) (⟨win0_6.index t (1 : Fin 3) * 16 + q.val, hb⟩ : Fin 256) r :=
    funext fun a => Fin.ext (by
      match a with
      | ⟨0, _⟩ => show win0_6.index t (0 : Fin 3) * 64 + 1 * p.val = win0_6.index t (0 : Fin 3) * 64 + p.val; omega
      | ⟨1, _⟩ => show win0_6.index t (1 : Fin 3) * 16 + 1 * q.val = win0_6.index t (1 : Fin 3) * 16 + q.val; omega
      | ⟨2, _⟩ => show win0_6.index t (2 : Fin 3) * 1024 + 1 * r.val = r.val; omega)
  show Value.E6 (View.ld (iblk m c 0 t) r0_0) (View.ld (iblk m c 1 t) r0_1) (View.ld (iblk m c 1 t) r0_2) (View.ld (iblk m c 2 t) r0_3)
      (View.ld (iblk m c 3 t) r0_3) (View.ld (iblk m c 4 t) r0_3) (View.ld (iblk m c 5 t) r0_4) (ix3 p q r)
    = result m c (((cfg0.win 6).blk t).view.emb (ix3 p q r))
  rw [hg]
  refine body_at (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (iblk m c 0 t) (iblk m c 1 t) (iblk m c 2 t) (iblk m c 3 t) (iblk m c 4 t) (iblk m c 5 t) p q r
    ⟨win0_6.index t (0 : Fin 3) * 64 + p.val, hs⟩ ⟨win0_6.index t (1 : Fin 3) * 16 + q.val, hb⟩ r ?_ ?_ ?_ ?_ ?_ ?_
  · -- the block of x sits at the output block's sequence and batch offsets
    intro k
    have hk : k.val < 3 := k.isLt
    show V m c main_arg0 (((cfg0.win 0).blk t).view.emb (ix3 p q k)) = _
    rw [V_main_arg0]
    refine congrArg _ (funext fun a => Fin.ext ?_)
    match a with
    | ⟨0, _⟩ => show win0_0.index t (0 : Fin 3) * 64 + 1 * p.val = win0_6.index t (0 : Fin 3) * 64 + p.val; omega
    | ⟨1, _⟩ => show win0_0.index t (1 : Fin 3) * 16 + 1 * q.val = win0_6.index t (1 : Fin 3) * 16 + q.val; omega
    | ⟨2, _⟩ => show win0_0.index t (2 : Fin 3) * 3 + 1 * k.val = k.val; omega
  · -- the transposed planar weights, whole
    intro k
    have hk : k.val < 2 := k.isLt
    have hz : ((cfg0.win 1).blk t).view.emb (ix2 k r) = ix2 k r := funext fun a => Fin.ext (by
      match a with
      | ⟨0, _⟩ => show win0_1.index t (0 : Fin 2) * 2 + 1 * k.val = k.val; omega
      | ⟨1, _⟩ => show win0_1.index t (1 : Fin 2) * 1024 + 1 * r.val = r.val; omega)
    show V m c main_v0 (((cfg0.win 1).blk t).view.emb (ix2 k r)) = _
    rw [hz]
    exact planarWeightsT_apply m c k r
  · -- the planar bias row, whole
    have hz : ((cfg0.win 2).blk t).view.emb (ix2 (0 : Fin 1) r) = ix2 (0 : Fin 1) r := funext fun a => Fin.ext (by
      match a with
      | ⟨0, _⟩ => show win0_2.index t (0 : Fin 2) * 1 + 1 * 0 = 0; omega
      | ⟨1, _⟩ => show win0_2.index t (1 : Fin 2) * 1024 + 1 * r.val = r.val; omega)
    show V m c main_v1 (((cfg0.win 2).blk t).view.emb (ix2 (0 : Fin 1) r)) = _
    rw [hz]
    exact planarBiasRow_apply m c r
  · -- the transposed segment weights, whole
    have hz : ((cfg0.win 3).blk t).view.emb (ix2 (0 : Fin 1) r) = ix2 (0 : Fin 1) r := funext fun a => Fin.ext (by
      match a with
      | ⟨0, _⟩ => show win0_3.index t (0 : Fin 2) * 1 + 1 * 0 = 0; omega
      | ⟨1, _⟩ => show win0_3.index t (1 : Fin 2) * 1024 + 1 * r.val = r.val; omega)
    show V m c main_v2 (((cfg0.win 3).blk t).view.emb (ix2 (0 : Fin 1) r)) = _
    rw [hz]
    exact segmentWeightsT_apply m c r
  · -- the segment bias row, whole
    have hz : ((cfg0.win 4).blk t).view.emb (ix2 (0 : Fin 1) r) = ix2 (0 : Fin 1) r := funext fun a => Fin.ext (by
      match a with
      | ⟨0, _⟩ => show win0_4.index t (0 : Fin 2) * 1 + 1 * 0 = 0; omega
      | ⟨1, _⟩ => show win0_4.index t (1 : Fin 2) * 1024 + 1 * r.val = r.val; omega)
    show V m c main_v3 (((cfg0.win 4).blk t).view.emb (ix2 (0 : Fin 1) r)) = _
    rw [hz]
    exact segmentBiasRow_apply m c r
  · -- the block of the positional table sits at the output block's sequence offset
    show V m c main_arg5 (((cfg0.win 5).blk t).view.emb (ix3 p (0 : Fin 1) r)) = _
    rw [V_main_arg5]
    refine congrArg _ (funext fun a => Fin.ext ?_)
    match a with
    | ⟨0, _⟩ => show win0_5.index t (0 : Fin 3) * 64 + 1 * p.val = win0_6.index t (0 : Fin 3) * 64 + p.val; omega
    | ⟨1, _⟩ => show win0_5.index t (1 : Fin 3) * 1 + 1 * 0 = 0; omega
    | ⟨2, _⟩ => show win0_5.index t (2 : Fin 3) * 1024 + 1 * r.val = r.val; omega

/-! ## The blocks tile the array -/

/-- An index of the array is in point `t`'s output block iff each coordinate is in the block's range on its axis. -/
theorem mem_block (t : Fin cfg0.N) (i : S256x256x1024.Idx) :
    i ∈ ((cfg0.win 6).blk t).view.set ↔ ∀ a : Fin 3, win0_6.index t a * S64x16x1024.size a ≤ (i a).val
      ∧ (i a).val < win0_6.index t a * S64x16x1024.size a + S64x16x1024.size a := by
  show i ∈ ((View.whole main_v4).slice (win0_6.rect t)).set ↔ _
  rw [View.set_slice_whole, Rect.mem_set_unit]
  exact Iff.rfl

/-- The entry at `(s, b, d)` lies in the output block of the point at sequence block `s / 64`, batch block `b / 16`. -/
theorem covered (i : S256x256x1024.Idx) :
    ∃ t : Fin cfg0.N, (cfg0.win 6).flush t = true ∧ i ∈ ((cfg0.win 6).blk t).view.set := by
  have hi0 : (i 0).val < 256 := (i 0).isLt
  have hi1 : (i 1).val < 256 := (i 1).isLt
  have hi2 : (i 2).val < 1024 := (i 2).isLt
  obtain ⟨t, ht⟩ := index_onto ⟨(i 0).val / 64, by omega⟩ ⟨(i 1).val / 16, by omega⟩
  have q0 : win0_6.index t (0 : Fin 3) = (i 0).val / 64 := congrFun ht 0
  have q1 : win0_6.index t (1 : Fin 3) = (i 1).val / 16 := congrFun ht 1
  have q2 : win0_6.index t (2 : Fin 3) = 0 := congrFun ht 2
  refine ⟨t, flush0_6 t, ?_⟩
  rw [mem_block]
  intro a
  match a with
  | ⟨0, _⟩ => show win0_6.index t (0 : Fin 3) * 64 ≤ (i 0).val ∧ (i 0).val < win0_6.index t (0 : Fin 3) * 64 + 64; omega
  | ⟨1, _⟩ => show win0_6.index t (1 : Fin 3) * 16 ≤ (i 1).val ∧ (i 1).val < win0_6.index t (1 : Fin 3) * 16 + 16; omega
  | ⟨2, _⟩ => show win0_6.index t (2 : Fin 3) * 1024 ≤ (i 2).val ∧ (i 2).val < win0_6.index t (2 : Fin 3) * 1024 + 1024; omega

/-! ## The array after the run, and the run -/

/-- THE RESULT ARRAY after the run is the layer's function of the arguments. -/
theorem final (c : Dev nD) : (dats m 0 c).arrAt 6 cfg0.N = result m c :=
  (dats m 0 c).arrAt_eq_of_cover 6 (result m c) (fun t _ => flushed_eq m c t) covered

/-- Every weakly fair execution of the kernel's program ends with the result array at the layer's function of
    the arguments and the arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.PosEnc.Kernel

end
-- ==== Proof.lean ====
/-
  A positional-encoding layer: three coordinates per token, two small linear maps and a table.

  For a token at sequence position `s` and batch entry `b` with coordinates `x[s,b,0..2]`, and a model coordinate `d`,

    out[s,b,d] = (x[s,b,0]·Wxy[d,0] + x[s,b,1]·Wxy[d,1] + bxy[d]) + (x[s,b,2]·Wseg[d,0] + bseg[d]) + pe[s,0,d].

  One program computes this block by block over a 4 × 16 grid, each point producing a `[64, 16, 1024]` block from
  its block of `x`, its block of the table and the four small parameter arrays, as broadcast multiply-adds.  The
  other computes the planar part as a contraction of length two, adds the table, then the segment part.

  Over the extended reals the two agree entry by entry: the contraction of length two is its two products added in
  order, and the only remaining difference is whether the table or the segment part is added first, which does not
  matter because addition of extended reals is commutative and associative.  No finiteness of the inputs is used.

  `Proof/Spec.lean` states the function and the regrouping law; `Proof/RefSide.lean` reads the contraction program
  entry by entry; `Proof/KernelHost.lean`, `Proof/KernelBlock.lean` and `Proof/KernelRun.lean` read the blockwise
  program: the small arrays as laid out before the grid, one point's block, and the 64 blocks tiling the array.
  Each program terminates without fault and leaves its arguments unchanged; the blockwise program read at machine
  words is its own idealization, no operation having been rewritten.
-/
import proofs.«133185_j25288767438916_1_alg».proof.Defs
import proofs.«133185_j25288767438916_1_alg».proof.Proof.Gen.Kernel
import proofs.«133185_j25288767438916_1_alg».proof.Proof.Gen.Kernel.Skeleton
import proofs.«133185_j25288767438916_1_alg».proof.Proof.Gen.Kernel.Launch
import proofs.«133185_j25288767438916_1_alg».proof.Proof.Gen.Kernel.Points
import proofs.«133185_j25288767438916_1_alg».proof.Proof.Gen.Kernel.Frame
import proofs.«133185_j25288767438916_1_alg».proof.Proof.Gen.KernelIdeal
import proofs.«133185_j25288767438916_1_alg».proof.Proof.Gen.KernelIdeal.Skeleton
import proofs.«133185_j25288767438916_1_alg».proof.Proof.Gen.KernelIdeal.Launch
import proofs.«133185_j25288767438916_1_alg».proof.Proof.Gen.KernelIdeal.Points
import proofs.«133185_j25288767438916_1_alg».proof.Proof.Gen.KernelIdeal.Frame
import proofs.«133185_j25288767438916_1_alg».proof.Proof.Gen.ReferenceIdeal
import proofs.«133185_j25288767438916_1_alg».proof.Proof.Gen.Pre_finite_inputs
import proofs.«133185_j25288767438916_1_alg».proof.Proof.Gen.KernelIdeal.Value
import proofs.«133185_j25288767438916_1_alg».proof.Proof.Gen.ReferenceIdeal.Run
import proofs.«133185_j25288767438916_1_alg».proof.Proof.Gen.ReferenceIdeal.Read
import proofs.«133185_j25288767438916_1_alg».proof.Proof.RefSide
import proofs.«133185_j25288767438916_1_alg».proof.Proof.KernelRun
import Idealize.ShloMosaic.Adequacy
import Idealize.ShloMosaic.Init

noncomputable section

namespace Cert.Proof

open Idealize.ShloMosaic Idealize.SL.Sem

/-- The blockwise program at machine words terminates, faults nowhere and leaves its arguments as they were. -/
theorem frame_kernel : Cert.frame_Kernel := fun m ρ _ => Cert.Kernel.Gen.frame m ρ

/-- The same at the exact instance. -/
theorem frame_kernelIdeal : Cert.frame_KernelIdeal := fun m ρ _ => Cert.KernelIdeal.Gen.frame m ρ

/-- The contraction program is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- No operation of the blockwise program was rewritten for the exact reading: nothing to preserve. -/
theorem preserves : Cert.preserves_Kernel_KernelIdeal := trivial

/-- From memories that agree on the six arguments, both programs end with the result array at the layer's
    function of those arguments: the blockwise one by its 64 blocks, the contraction one entry by entry. -/
theorem algebraic : Cert.algebraic_KernelIdeal_ReferenceIdeal := by
  intro m ρ m' ρ' _ hagree
  refine ⟨fun c => Cert.PosEnc.Kernel.result m c, Cert.PosEnc.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.PosEnc.Reference.result_eq_layer,
    (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
